-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x384x384x3 : Shape := ⟨4, ![256, 384, 384, 3]⟩
abbrev S_ : Shape := ⟨0, ![]⟩

class Facts : Prop where
  bcast_S_S256x384x384x3 : S_.BroadcastsInDim S256x384x384x3 (![] : Fin 0 → Fin S256x384x384x3.rank)
  reducesTo_S256x384x384x3_S_d0_1_2_3 : S256x384x384x3.ReducesTo [0, 1, 2, 3] S_
  h_S_ : 0 < S_.numel

variable [Facts]

def fn {F : FTy → Type} [FloatOps F] (main_arg0 : FVec F S256x384x384x3 .f32) : IVec S_ 1 :=
  let main_v0 : FVec F S256x384x384x3 .f32 := Host.absf main_arg0
  let main_cst : FVec F S_ .f32 := constant S_ .f32 0x7F800000#32
  let main_v1 : FVec F S256x384x384x3 .f32 := broadcastInDim S256x384x384x3 ![] bcast_S_S256x384x384x3 main_cst
  let main_v2 : IVec S256x384x384x3 1 := cmpf .olt main_v0 main_v1
  let main_c : IVec S_ 1 := constantI S_ 1 1#1
  let main_v3 : IVec S_ 1 := (fun x v => Host.reduce IntOp.andi x v reducesTo_S256x384x384x3_S_d0_1_2_3 h_S_) main_v2 main_c
  main_v3
-- ==== Kernel.lean ====
abbrev S256x384x384x3 : Shape := ⟨4, ![256, 384, 384, 3]⟩
abbrev S256x384x1152 : Shape := ⟨3, ![256, 384, 1152]⟩
abbrev S256x576x768 : Shape := ⟨3, ![256, 576, 768]⟩
abbrev S4x384x1152 : Shape := ⟨3, ![4, 384, 1152]⟩
abbrev S4x576x768 : Shape := ⟨3, ![4, 576, 768]⟩
abbrev S96x16x24x48 : Shape := ⟨4, ![96, 16, 24, 48]⟩
abbrev S96x24x16x48 : Shape := ⟨4, ![96, 24, 16, 48]⟩
abbrev S4x24x24x768 : Shape := ⟨4, ![4, 24, 24, 768]⟩

abbrev nBuf : Space → Nat
  | .hbm => 3
  | .vmem => 4
  | .smem => 0
  | _ => 0

abbrev bufTy : (tb : Table) → Fin (tcTables nBuf tb) → BufTy
  | .hbm, ⟨0, _⟩ => ⟨S256x384x384x3, .f32⟩
  | .hbm, ⟨1, _⟩ => ⟨S256x384x1152, .f32⟩
  | .hbm, ⟨2, _⟩ => ⟨S256x576x768, .f32⟩
  | .local _ .vmem, ⟨0, _⟩ => ⟨S4x384x1152, .f32⟩
  | .local _ .vmem, ⟨1, _⟩ => ⟨S4x384x1152, .f32⟩
  | .local _ .vmem, ⟨2, _⟩ => ⟨S4x576x768, .f32⟩
  | .local _ .vmem, ⟨3, _⟩ => ⟨S4x576x768, .f32⟩
  | _, _ => ⟨S256x384x384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x384x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x576x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x384x384x3_S256x384x1152 : S256x384x384x3.ShapeCasts S256x384x1152
  inb_S4x384x1152_S4x384x1152_0_0_0 : ∀ a, (![0, 0, 0] : Fin 3 → Nat) a + S4x384x1152.size a ≤ S4x384x1152.size a
  h_S4x384x1152 : 0 < S4x384x1152.numel
  shapeCasts_S4x384x1152_S4x384x1152 : S4x384x1152.ShapeCasts S4x384x1152
  shapeCasts_S4x384x1152_S96x16x24x48 : S4x384x1152.ShapeCasts S96x16x24x48
  transposes_S96x16x24x48_p0_2_1_3_S96x24x16x48 : S96x16x24x48.Transposes [0, 2, 1, 3] S96x24x16x48
  shapeCasts_S96x24x16x48_S4x24x24x768 : S96x24x16x48.ShapeCasts S4x24x24x768
  shapeCasts_S4x24x24x768_S4x576x768 : S4x24x24x768.ShapeCasts S4x576x768
  inb_S4x576x768_S4x576x768_0_0_0 : ∀ a, (![0, 0, 0] : Fin 3 → Nat) a + S4x576x768.size a ≤ S4x576x768.size a
  h_S4x576x768 : 0 < S4x576x768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x384x1152.size a ≤ S256x384x1152.size a
  hwx0_0 : ∀ i : grid0.Coords, EltTy.bits .f32 = 32 ∨ (Rect.block (s := S256x384x1152) S4x384x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x576x768.size a ≤ S256x576x768.size a
  hwx0_1 : ∀ i : grid0.Coords, EltTy.bits .f32 = 32 ∨ (Rect.block (s := S256x576x768) S4x576x768.size (cc0_transform_1 i) (hinb0_1 i)).WholeWords (EltTy.packing .f32)

variable [Facts₀]

abbrev win0_0 : Pipeline.Window sig grid0 :=
  Pipeline.Window.ofSpec (Memref.whole main_v0) S4x384x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x576x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x384x384x3 : Shape := ⟨4, ![256, 384, 384, 3]⟩
abbrev S256x24x16x24x16x3 : Shape := ⟨6, ![256, 24, 16, 24, 16, 3]⟩
abbrev S256x24x24x16x16x3 : Shape := ⟨6, ![256, 24, 24, 16, 16, 3]⟩
abbrev S256x576x768 : Shape := ⟨3, ![256, 576, 768]⟩

abbrev nBuf : Space → Nat
  | .hbm => 4
  | .vmem => 0
  | .smem => 0
  | _ => 0

abbrev bufTy : (tb : Table) → Fin (tcTables nBuf tb) → BufTy
  | .hbm, ⟨0, _⟩ => ⟨S256x384x384x3, .f32⟩
  | .hbm, ⟨1, _⟩ => ⟨S256x24x16x24x16x3, .f32⟩
  | .hbm, ⟨2, _⟩ => ⟨S256x24x24x16x16x3, .f32⟩
  | .hbm, ⟨3, _⟩ => ⟨S256x576x768, .f32⟩
  | _, _ => ⟨S256x384x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S256x384x384x3_S256x24x16x24x16x3 : S256x384x384x3.ShapeCasts S256x24x16x24x16x3
  transposes_S256x24x16x24x16x3_S256x24x24x16x16x3_0_1_3_2_4_5 : S256x24x16x24x16x3.Transposes [0, 1, 3, 2, 4, 5] S256x24x24x16x16x3
  shapeCasts_S256x24x24x16x16x3_S256x576x768 : S256x24x24x16x16x3.ShapeCasts S256x576x768

variable [Facts₀]

class Facts : Prop extends Facts₀ where

variable [Facts]
-- ==== Proof.PatchIndex.lean ====
/-
  Patch extraction as a map of indices.

  An image batch `x : [256, 384, 384, 3]` (batch, row, column, channel) is cut into 24 × 24 tiles of 16 × 16 pixels.
  The result `[256, 576, 768]` lists, for each image, its tiles in row-major order (tile row `q / 24`, tile column
  `q % 24`) and inside a tile its pixels row by row, the three channels of a pixel together: entry `l` of a tile is
  pixel row `l / 48`, pixel column `l % 48 / 3`, channel `l % 3`. So

      patches x (b, q, l) = x (b, (q / 24) · 16 + l / 48, (q % 24) · 16 + (l % 48) / 3, l % 3).

  Nothing is computed on the entries: every statement below is an equation between POSITIONS, generic in the entry type.
  Two ways of reaching `patches` are read here, each a chain of reshapes (which keep the row-major position) around one
  transpose (which permutes coordinates):
    * on the whole array, through rank 6: split rows and columns into (tile, pixel), swap the pixel-row axis with the
      tile-column axis, merge back (`reference_eq`);
    * on four images at a time with column and channel already merged into one axis of 1152 = 384 · 3: split into
      [96, 16, 24, 48] (image-and-tile-row, pixel row, tile column, 16 pixels × 3 channels), swap the two middle axes,
      merge (`block_apply`); and the merged axis itself, `wc = 3 · column + channel` (`merged_eq_patches`).
  Each proof names the intermediate index by its coordinates and leaves one linear identity with quotients and remainders
  by literals — 576 = 24 · 24, 768 = 16 · 48, 1152 = 24 · 48, 48 = 16 · 3 — per reshape.
-/
import Idealize.ShloMosaic.Lib.Pipeline.Value
import Idealize.ShloMosaic.Lib.ValueIdx
import Idealize.ShloMosaic.Lib.ValueIdxRank6

namespace Cert.Patchify

open Idealize.ShloMosaic Idealize.ShloMosaic.ValueIdx

variable {α : Type}

/-- The images: batch, row, column, channel. -/
abbrev Img : Shape := ⟨4, ![256, 384, 384, 3]⟩
/-- The images with column and channel merged into one axis. -/
abbrev Rows : Shape := ⟨3, ![256, 384, 1152]⟩
/-- The patches: batch, tile, entry of the tile. -/
abbrev Pat : Shape := ⟨3, ![256, 576, 768]⟩
/-- Rows and columns each split into (tile, pixel). -/
abbrev Split6 : Shape := ⟨6, ![256, 24, 16, 24, 16, 3]⟩
/-- The same with pixel row and tile column exchanged. -/
abbrev Swap6 : Shape := ⟨6, ![256, 24, 24, 16, 16, 3]⟩
/-- Four images' merged rows. -/
abbrev RowsBlk : Shape := ⟨3, ![4, 384, 1152]⟩
/-- Four images as (image and tile row, pixel row, tile column, pixel column and channel). -/
abbrev Tiles4 : Shape := ⟨4, ![96, 16, 24, 48]⟩
/-- The same with the two middle axes exchanged. -/
abbrev Swap4 : Shape := ⟨4, ![96, 24, 16, 48]⟩
/-- Four images as (image, tile row, tile column, entry of the tile). -/
abbrev Grid4 : Shape := ⟨4, ![4, 24, 24, 768]⟩
/-- Four images' patches. -/
abbrev PatBlk : Shape := ⟨3, ![4, 576, 768]⟩

/-- Where entry `(b, q, l)` of the patches comes from: image `b`, row `(q / 24) · 16 + l / 48`, column
    `(q % 24) · 16 + (l % 48) / 3`, channel `l % 3`. -/
def src (i : Pat.Idx) : Img.Idx :=
  ix4 (n0 := 256) (n1 := 384) (n2 := 384) (n3 := 3)
    ⟨(i 0).val, (i 0).isLt⟩
    ⟨(i 1).val / 24 * 16 + (i 2).val / 48, by
      have h1 : (i 1).val < 576 := (i 1).isLt
      have h2 : (i 2).val < 768 := (i 2).isLt
      omega⟩
    ⟨(i 1).val % 24 * 16 + (i 2).val % 48 / 3, by omega⟩
    ⟨(i 2).val % 3, by omega⟩

/-- The patches of an image batch. -/
def patches (x : Img.Idx → α) : Pat.Idx → α := fun i => x (src i)

/-- THE WHOLE-ARRAY ROUTE: split into rank 6, exchange pixel row and tile column, merge to `[256, 576, 768]`. Entry
    `(b, q, l)` sits at `(b, q / 24, q % 24, l / 48, l % 48 / 3, l % 3)` after the exchange, so at
    `(b, q / 24, l / 48, q % 24, l % 48 / 3, l % 3)` before it, which is position `src (b, q, l)` of the images. -/
theorem reference_eq (x : Img.Idx → α) (h1 : Img.ShapeCasts Split6)
    (h2 : Split6.Transposes [0, 1, 3, 2, 4, 5] Swap6) (h3 : Swap6.ShapeCasts Pat) :
    shapeCast Pat (transpose Swap6 [0, 1, 3, 2, 4, 5] (shapeCast Split6 x h1) h2) h3 = patches x := by
  funext i
  have b0 : (i 0).val < 256 := (i 0).isLt
  have b1 : (i 1).val < 576 := (i 1).isLt
  have b2 : (i 2).val < 768 := (i 2).isLt
  let s : Swap6.Idx := ix6 (n0 := 256) (n1 := 24) (n2 := 24) (n3 := 16) (n4 := 16) (n5 := 3)
    ⟨(i 0).val, b0⟩ ⟨(i 1).val / 24, by omega⟩ ⟨(i 1).val % 24, by omega⟩
    ⟨(i 2).val / 48, by omega⟩ ⟨(i 2).val % 48 / 3, by omega⟩ ⟨(i 2).val % 3, by omega⟩
  let u : Split6.Idx := ix6 (n0 := 256) (n1 := 24) (n2 := 16) (n3 := 24) (n4 := 16) (n5 := 3)
    ⟨(i 0).val, b0⟩ ⟨(i 1).val / 24, by omega⟩ ⟨(i 2).val / 48, by omega⟩
    ⟨(i 1).val % 24, by omega⟩ ⟨(i 2).val % 48 / 3, by omega⟩ ⟨(i 2).val % 3, by omega⟩
  refine (shapeCast_apply _ h3 i s ?_).trans
    ((transpose_apply _ _ h2 s u ?_).trans (shapeCast_apply x h1 u (src i) ?_))
  · rw [Shape.rowMajor_val_six, Shape.rowMajor_val_three]
    show (((((i 0).val * 24 + (i 1).val / 24) * 24 + (i 1).val % 24) * 16 + (i 2).val / 48) * 16 + (i 2).val % 48 / 3) * 3 + (i 2).val % 3
      = ((i 0).val * 576 + (i 1).val) * 768 + (i 2).val
    omega
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_four, Shape.rowMajor_val_six]
    show (((i 0).val * 384 + ((i 1).val / 24 * 16 + (i 2).val / 48)) * 384 + ((i 1).val % 24 * 16 + (i 2).val % 48 / 3)) * 3 + (i 2).val % 3
      = (((((i 0).val * 24 + (i 1).val / 24) * 16 + (i 2).val / 48) * 24 + (i 1).val % 24) * 16 + (i 2).val % 48 / 3) * 3 + (i 2).val % 3
    omega

/-- THE FOUR-IMAGE ROUTE, over merged rows: entry `(b, q, l)` of four images' patches is read at row
    `(q / 24) · 16 + l / 48` and merged column `(q % 24) · 48 + l % 48` of image `b`. Through the chain the entry sits at
    `(b, q / 24, q % 24, l)`, then `(24 b + q / 24, q % 24, l / 48, l % 48)`, and before the exchange of the middle
    axes at `(24 b + q / 24, l / 48, q % 24, l % 48)`. -/
theorem block_apply (xb : RowsBlk.Idx → α) (g0 : RowsBlk.ShapeCasts RowsBlk) (g1 : RowsBlk.ShapeCasts Tiles4)
    (g2 : Tiles4.Transposes [0, 2, 1, 3] Swap4) (g3 : Swap4.ShapeCasts Grid4) (g4 : Grid4.ShapeCasts PatBlk)
    (y : PatBlk.Idx) (k : RowsBlk.Idx) (hk0 : (k 0).val = (y 0).val)
    (hk1 : (k 1).val = (y 1).val / 24 * 16 + (y 2).val / 48)
    (hk2 : (k 2).val = (y 1).val % 24 * 48 + (y 2).val % 48) :
    shapeCast PatBlk (shapeCast Grid4 (transpose Swap4 [0, 2, 1, 3]
      (shapeCast Tiles4 (shapeCast RowsBlk xb g0) g1) g2) g3) g4 y = xb k := by
  have b0 : (y 0).val < 4 := (y 0).isLt
  have b1 : (y 1).val < 576 := (y 1).isLt
  have b2 : (y 2).val < 768 := (y 2).isLt
  let a : Grid4.Idx := ix4 (n0 := 4) (n1 := 24) (n2 := 24) (n3 := 768)
    ⟨(y 0).val, b0⟩ ⟨(y 1).val / 24, by omega⟩ ⟨(y 1).val % 24, by omega⟩ ⟨(y 2).val, b2⟩
  let s : Swap4.Idx := ix4 (n0 := 96) (n1 := 24) (n2 := 16) (n3 := 48)
    ⟨(y 0).val * 24 + (y 1).val / 24, by omega⟩ ⟨(y 1).val % 24, by omega⟩
    ⟨(y 2).val / 48, by omega⟩ ⟨(y 2).val % 48, by omega⟩
  let u : Tiles4.Idx := ix4 (n0 := 96) (n1 := 16) (n2 := 24) (n3 := 48)
    ⟨(y 0).val * 24 + (y 1).val / 24, by omega⟩ ⟨(y 2).val / 48, by omega⟩
    ⟨(y 1).val % 24, by omega⟩ ⟨(y 2).val % 48, by omega⟩
  rw [shapeCast_self xb g0]
  refine (shapeCast_apply _ g4 y a ?_).trans ((shapeCast_apply _ g3 a s ?_).trans
    ((transpose_apply _ _ g2 s u ?_).trans (shapeCast_apply xb g1 u k ?_)))
  · rw [Shape.rowMajor_val_four, Shape.rowMajor_val_three]
    show (((y 0).val * 24 + (y 1).val / 24) * 24 + (y 1).val % 24) * 768 + (y 2).val
      = ((y 0).val * 576 + (y 1).val) * 768 + (y 2).val
    omega
  · rw [Shape.rowMajor_val_four, Shape.rowMajor_val_four]
    show ((((y 0).val * 24 + (y 1).val / 24) * 24 + (y 1).val % 24) * 16 + (y 2).val / 48) * 48 + (y 2).val % 48
      = (((y 0).val * 24 + (y 1).val / 24) * 24 + (y 1).val % 24) * 768 + (y 2).val
    omega
  · intro b
    match b with
    | ⟨0, _⟩ => rfl
    | ⟨1, _⟩ => rfl
    | ⟨2, _⟩ => rfl
    | ⟨3, _⟩ => rfl
  · rw [Shape.rowMajor_val_three, Shape.rowMajor_val_four]
    show ((k 0).val * 384 + (k 1).val) * 1152 + (k 2).val
      = ((((y 0).val * 24 + (y 1).val / 24) * 16 + (y 2).val / 48) * 24 + (y 1).val % 24) * 48 + (y 2).val % 48
    omega

/-- THE MERGED AXIS: the images reshaped to merged rows, read at image `b`, row `(q / 24) · 16 + l / 48` and merged
    column `(q % 24) · 48 + l % 48`, is entry `(b, q, l)` of the patches: the merged column is `3 ·` column `+` channel,
    and `(q % 24) · 48 + l % 48 = 3 · ((q % 24) · 16 + (l % 48) / 3) + l % 3` because 3 divides 48. -/
theorem merged_eq_patches (x : Img.Idx → α) (hm : Img.ShapeCasts Rows) (e : Rows.Idx) (i : Pat.Idx)
    (h0 : (e 0).val = (i 0).val) (h1 : (e 1).val = (i 1).val / 24 * 16 + (i 2).val / 48)
    (h2 : (e 2).val = (i 1).val % 24 * 48 + (i 2).val % 48) :
    shapeCast Rows x hm e = patches x i := by
  have b0 : (i 0).val < 256 := (i 0).isLt
  have b1 : (i 1).val < 576 := (i 1).isLt
  have b2 : (i 2).val < 768 := (i 2).isLt
  refine shapeCast_apply x hm e (src i) ?_
  rw [Shape.rowMajor_val_four, Shape.rowMajor_val_three]
  show (((i 0).val * 384 + ((i 1).val / 24 * 16 + (i 2).val / 48)) * 384 + ((i 1).val % 24 * 16 + (i 2).val % 48 / 3)) * 3 + (i 2).val % 3
    = ((e 0).val * 384 + (e 1).val) * 1152 + (e 2).val
  omega

end Cert.Patchify
-- ==== Proof.PatchKernel.lean ====
/-
  What the idealized kernel leaves in its result array: the patches of the argument (`Cert.Patchify.patches`).

  The program merges column and channel on the host (one reshape, `[256, 384, 384, 3] → [256, 384, 1152]`) and then
  runs 64 grid points; point `t` is handed images `4 t … 4 t + 3` as merged rows and writes those four images'
  patches. Its body only re-lays its block (`Cert.Patchify.block_apply`): entry `(b, q, l)` of the written block is the
  block's entry at row `(q / 24) · 16 + l / 48` and merged column `(q % 24) · 48 + l % 48` of image `b`. Read through the
  block's place in the merged array (image `4 t + b`) and through the host's reshape (`Cert.Patchify.merged_eq_patches`)
  that is entry `(4 t + b, q, l)` of the patches: what point `t` writes back is block `t` of the patches
  (`flushed_eq`). The 64 blocks of four images tile the 256 images — image `b` lies in block `b / 4` — so the
  array ends holding the patches (`final`, `run`).
-/
import proofs.«104238_j37074157699251_1_alg».proof.Proof.Gen.KernelIdeal.Value
import proofs.«104238_j37074157699251_1_alg».proof.Proof.PatchIndex
import Idealize.ShloMosaic.Lib.Pipeline.Value
import Idealize.ShloMosaic.Lib.StableHlo.Run
import Idealize.ShloMosaic.Lib.ValueIdx

noncomputable section

namespace Cert.KernelIdeal.Patches

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- The region finds the merged array: the argument through the host's one reshape. -/
theorem rows_eq (c : Dev nD) :
    (V m c main_v0 : S256x384x1152.Idx → Elt F .f32)
      = shapeCast S256x384x1152 (m ((c : Thread nD τ).loc main_arg0)) shapeCasts_S256x384x384x3_S256x384x1152 := by
  dsimp only [V, hostOps0]
  after_results
  rfl

/-- The body's result at entry `(b, q, l)` is its block at image `b`, row `(q / 24) · 16 + l / 48`, merged column
    `(q % 24) · 48 + l % 48`. -/
theorem payload_apply (x0 : Vec F S4x384x1152 .f32) (y : S4x576x768.Idx) (k : S4x384x1152.Idx)
    (hk0 : (k 0).val = (y 0).val) (hk1 : (k 1).val = (y 1).val / 24 * 16 + (y 2).val / 48)
    (hk2 : (k 2).val = (y 1).val % 24 * 48 + (y 2).val % 48) : k0_pay1 x0 y = x0 k := by
  unfold k0_pay1
  exact Cert.Patchify.block_apply x0 _ _ _ _ _ y k hk0 hk1 hk2

/-- Both windows move along the batch axis only, one block of four images per grid point. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the argument's patches. -/
theorem flushed_eq (c : Dev nD) (t : Fin cfg0.N) :
    (dats m 0 c).flushed 1 t
      = ((cfg0.win 1).blk t).view.read (Elt F) (Cert.Patchify.patches (m ((c : Thread nD τ).loc main_arg0))) := by
  rw [Cert.KernelIdeal.Value.flushed1]
  unfold out0_1
  rw [View.canon_unit_zero zero_offsets]
  simp only [View.ld_unit_zero (S := S4x384x1152) zero_offsets]
  obtain ⟨e0, e1, e2, e3, e4, e5⟩ := block_index t
  funext y
  have b0 : (y 0).val < 4 := (y 0).isLt
  have b1 : (y 1).val < 576 := (y 1).isLt
  have b2 : (y 2).val < 768 := (y 2).isLt
  show k0_pay1 (iblk m c 0 t) y
    = Cert.Patchify.patches (m ((c : Thread nD τ).loc main_arg0)) (((cfg0.win 1).blk t).view.emb y)
  refine (payload_apply (iblk m c 0 t) y
    (ix3 (n0 := 4) (n1 := 384) (n2 := 1152) ⟨(y 0).val, b0⟩ ⟨(y 1).val / 24 * 16 + (y 2).val / 48, by omega⟩
      ⟨(y 1).val % 24 * 48 + (y 2).val % 48, by omega⟩) rfl rfl rfl).trans ?_
  show V m c main_v0 (((cfg0.win 0).blk t).view.emb _) = _
  refine (congrFun (rows_eq m c) _).trans ?_
  refine Cert.Patchify.merged_eq_patches _ _ _ _ ?_ ?_ ?_
  · show win0_0.index t (0 : Fin 3) * 4 + 1 * (y 0).val = win0_1.index t (0 : Fin 3) * 4 + 1 * (y 0).val
    omega
  · show win0_0.index t (1 : Fin 3) * 384 + 1 * ((y 1).val / 24 * 16 + (y 2).val / 48)
      = (win0_1.index t (1 : Fin 3) * 576 + 1 * (y 1).val) / 24 * 16
        + (win0_1.index t (2 : Fin 3) * 768 + 1 * (y 2).val) / 48
    rw [e1, e4, e5]
    omega
  · show win0_0.index t (2 : Fin 3) * 1152 + 1 * ((y 1).val % 24 * 48 + (y 2).val % 48)
      = (win0_1.index t (1 : Fin 3) * 576 + 1 * (y 1).val) % 24 * 48
        + (win0_1.index t (2 : Fin 3) * 768 + 1 * (y 2).val) % 48
    rw [e2, e4, e5]
    omega

/-- THE RESULT ARRAY after the run is the argument's patches: image `b` lies in the block of point `b / 4`. -/
theorem final (c : Dev nD) :
    (dats m 0 c).arrAt 1 cfg0.N = Cert.Patchify.patches (m ((c : Thread nD τ).loc main_arg0)) :=
  (dats m 0 c).arrAt_eq_of_cover 1 (Cert.Patchify.patches (m ((c : Thread nD τ).loc main_arg0)))
    (fun t _ => flushed_eq m c t) fun i => by
      have b0 : (i 0).val < 256 := (i 0).isLt
      have b1 : (i 1).val < 576 := (i 1).isLt
      have b2 : (i 2).val < 768 := (i 2).isLt
      have hN : grid0.N = 64 := N_0
      have ht : (i 0).val / 4 < cfg0.N := by show (i 0).val / 4 < grid0.N; omega
      obtain ⟨-, -, -, e3, e4, e5⟩ := block_index ⟨(i 0).val / 4, ht⟩
      refine ⟨⟨(i 0).val / 4, ht⟩, flush0_1 _, ?_⟩
      show i ∈ ((View.whole main_v1).slice (win0_1.rect ⟨(i 0).val / 4, ht⟩)).set
      rw [View.set_slice_whole, Rect.mem_set_unit]
      intro a
      match a with
      | ⟨0, _⟩ =>
        show win0_1.index ⟨(i 0).val / 4, ht⟩ (0 : Fin 3) * 4 ≤ (i 0).val
          ∧ (i 0).val < win0_1.index ⟨(i 0).val / 4, ht⟩ (0 : Fin 3) * 4 + 4
        rw [e3]
        show (i 0).val / 4 * 4 ≤ (i 0).val ∧ (i 0).val < (i 0).val / 4 * 4 + 4
        omega
      | ⟨1, _⟩ =>
        show win0_1.index ⟨(i 0).val / 4, ht⟩ (1 : Fin 3) * 576 ≤ (i 1).val
          ∧ (i 1).val < win0_1.index ⟨(i 0).val / 4, ht⟩ (1 : Fin 3) * 576 + 576
        rw [e4]
        omega
      | ⟨2, _⟩ =>
        show win0_1.index ⟨(i 0).val / 4, ht⟩ (2 : Fin 3) * 768 ≤ (i 2).val
          ∧ (i 2).val < win0_1.index ⟨(i 0).val / 4, ht⟩ (2 : Fin 3) * 768 + 768
        rw [e5]
        omega

/-- The run, read: the result array at the argument's patches, the argument unchanged. -/
theorem run : θ_run defs (onTc (τ := τ) (main (F := F))) ⟨m, fun _ => 0, ρ⟩ fun r => ∀ c : Dev nD,
      r.2.mem ((c : Thread nD τ).loc main_v1) = Cert.Patchify.patches (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.Patches

end
-- ==== Proof.PatchReference.lean ====
/-
  What the idealized reference computes: the patches of its argument (`Cert.Patchify.patches`).

  The reference is three host operations on the whole array — split rows and columns into (tile, pixel), exchange
  pixel row and tile column, merge to `[256, 576, 768]` — and its run ends with the result at their composition, which
  is the patches index by index (`Cert.Patchify.reference_eq`).
-/
import proofs.«104238_j37074157699251_1_alg».proof.Proof.Gen.ReferenceIdeal.Run
import proofs.«104238_j37074157699251_1_alg».proof.Proof.PatchIndex

noncomputable section

namespace Cert.ReferenceIdeal.Patches

open Cert.ReferenceIdeal Cert.ReferenceIdeal.Gen Idealize.ShloMosaic Idealize.ShloMosaic.TcCoe Idealize.SL.Sem

variable {F : FTy → Type} [FloatOps F]

/-- The run, read: the result array at the argument's patches, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = Cert.Patchify.patches (m ((c.tc : Thread nD τ).loc main_arg0))
      ∧ r.2.mem ((c.tc : Thread nD τ).loc main_arg0) = m ((c.tc : Thread nD τ).loc main_arg0) :=
  (θ_run defs _ _).mono
    (fun _ h c => ⟨(h c).1.trans (Cert.Patchify.reference_eq (m ((c.tc : Thread nD τ).loc main_arg0)) _ _ _), (h c).2⟩)
    (Cert.ReferenceIdeal.Value.run (F := F) m ρ)

end Cert.ReferenceIdeal.Patches

end
-- ==== Proof.lean ====
/-
  Patch extraction: a Pallas kernel against `reshape → transpose → reshape`.

  Both programs take images `x : [256, 384, 384, 3]` (batch, row, column, channel) and return, for each image, its
  24 × 24 tiles of 16 × 16 pixels, tiles in row-major order and each tile's pixels row by row with the channels of a
  pixel together: `[256, 576, 768]` with

      result (b, q, l) = x (b, (q / 24) · 16 + l / 48, (q % 24) · 16 + (l % 48) / 3, l % 3)

  (`Cert.Patchify.patches`, Proof/PatchIndex.lean). No entry is computed on, so the equivalence is an identity between
  positions and never looks at the values: the precondition (finite inputs) is not used.

  * The reference splits rows and columns into (tile, pixel) at rank 6, exchanges the pixel-row axis with the
    tile-column axis and merges back (Proof/PatchReference.lean).
  * The kernel merges column and channel on the host, then at each of 64 grid points takes four images as merged rows
    `[4, 384, 1152]`, views them as `[96, 16, 24, 48]`, exchanges the two middle axes and merges to `[4, 576, 768]`; the
    64 blocks tile the result (Proof/PatchKernel.lean).

  The three frames are the generated ones (the reference's is its generated run with the result dropped); the ideal
  pass rewrote nothing, so `preserves` is trivial; `algebraic` sets the two runs side by side at the one function
  `patches` of arguments that agree.
-/
import proofs.«104238_j37074157699251_1_alg».proof.Defs
import proofs.«104238_j37074157699251_1_alg».proof.Proof.Gen.Kernel
import proofs.«104238_j37074157699251_1_alg».proof.Proof.Gen.Kernel.Skeleton
import proofs.«104238_j37074157699251_1_alg».proof.Proof.Gen.Kernel.Launch
import proofs.«104238_j37074157699251_1_alg».proof.Proof.Gen.Kernel.Points
import proofs.«104238_j37074157699251_1_alg».proof.Proof.Gen.Kernel.Frame
import proofs.«104238_j37074157699251_1_alg».proof.Proof.Gen.KernelIdeal
import proofs.«104238_j37074157699251_1_alg».proof.Proof.Gen.KernelIdeal.Skeleton
import proofs.«104238_j37074157699251_1_alg».proof.Proof.Gen.KernelIdeal.Launch
import proofs.«104238_j37074157699251_1_alg».proof.Proof.Gen.KernelIdeal.Points
import proofs.«104238_j37074157699251_1_alg».proof.Proof.Gen.KernelIdeal.Frame
import proofs.«104238_j37074157699251_1_alg».proof.Proof.Gen.ReferenceIdeal
import proofs.«104238_j37074157699251_1_alg».proof.Proof.Gen.Pre_finite_inputs
import proofs.«104238_j37074157699251_1_alg».proof.Proof.Gen.KernelIdeal.Value
import proofs.«104238_j37074157699251_1_alg».proof.Proof.Gen.ReferenceIdeal.Run
import proofs.«104238_j37074157699251_1_alg».proof.Proof.PatchIndex
import proofs.«104238_j37074157699251_1_alg».proof.Proof.PatchKernel
import proofs.«104238_j37074157699251_1_alg».proof.Proof.PatchReference
import Idealize.ShloMosaic.Adequacy
import Idealize.ShloMosaic.Init

noncomputable section

namespace Cert.Proof

open Idealize.ShloMosaic Idealize.SL.Sem

/-- The word-level kernel runs and leaves its argument as it was. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- And the idealized reference: its run, the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, both idealized programs end with the argument's patches in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Patchify.patches
      (m ((c.tc : Thread Cert.KernelIdeal.nD Cert.KernelIdeal.τ).loc Cert.KernelIdeal.main_arg0)),
    Cert.KernelIdeal.Patches.run (F := Ideal) m ρ, ?_⟩
  refine (θ_run Cert.ReferenceIdeal.defs _ _).mono (fun _ h c => ⟨(h c).1.trans ?_, (h c).2⟩)
    (Cert.ReferenceIdeal.Patches.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
